-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S600000 32) (main_arg2 : IVec S600000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 34
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S600000, .i32⟩
  | .hbm, ⟨7, _⟩ => ⟨S600000, .i1⟩
  | .hbm, ⟨8, _⟩ => ⟨S_, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S600000x1, .i32⟩
  | .hbm, ⟨13, _⟩ => ⟨S600000x128, .f32⟩
  | .hbm, ⟨14, _⟩ => ⟨S_, .f32⟩
  | .hbm, ⟨15, _⟩ => ⟨S100000x128, .f32⟩
  | .hbm, ⟨16, _⟩ => ⟨S600000x1, .i32⟩
  | .hbm, ⟨17, _⟩ => ⟨S100000x128, .f32⟩
  | .hbm, ⟨18, _⟩ => ⟨S_, .f32⟩
  | .hbm, ⟨19, _⟩ => ⟨S600000, .f32⟩
  | .hbm, ⟨20, _⟩ => ⟨S_, .f32⟩
  | .hbm, ⟨21, _⟩ => ⟨S100000, .f32⟩
  | .hbm, ⟨22, _⟩ => ⟨S600000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S1x128, .f32⟩
  | .hbm, ⟨33, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v9) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S600000, .i32⟩
  | .hbm, ⟨7, _⟩ => ⟨S600000, .i1⟩
  | .hbm, ⟨8, _⟩ => ⟨S_, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S600000x1, .i32⟩
  | .hbm, ⟨13, _⟩ => ⟨S600000x128, .f32⟩
  | .hbm, ⟨14, _⟩ => ⟨S_, .f32⟩
  | .hbm, ⟨15, _⟩ => ⟨S100000x128, .f32⟩
  | .hbm, ⟨16, _⟩ => ⟨S600000x1, .i32⟩
  | .hbm, ⟨17, _⟩ => ⟨S100000x128, .f32⟩
  | .hbm, ⟨18, _⟩ => ⟨S_, .f32⟩
  | .hbm, ⟨19, _⟩ => ⟨S600000, .f32⟩
  | .hbm, ⟨20, _⟩ => ⟨S_, .f32⟩
  | .hbm, ⟨21, _⟩ => ⟨S100000, .f32⟩
  | .hbm, ⟨22, _⟩ => ⟨S600000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x128, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S128x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  One graph-convolution layer with a residual and a degree normalisation, followed by a linear map, as ONE
  function of five arrays over the extended reals. For a node `r` and an output feature `c`,

      out[r, c] = ∑ k < 128, ((agg[r, k] + x[r, k]) · nrm[r]) · W[c, k]  +  b[c]

  where `agg` is the sum of the neighbours' features, `x` the node's own features, `nrm` the node's
  degree normalisation (one number per node), `W` the weight matrix read ROW `c` (the layer multiplies by the
  transpose of `W`) and `b` the bias. The sum runs over the 128 input features in their natural order; no
  factor is moved across the sum, so nothing here depends on the entries being finite.
-/
import Idealize.ShloMosaic.PureOps.Ideal
import Idealize.ShloMosaic.Lib.ValueIdx

noncomputable section

namespace Cert.GraphConv

open Idealize.ShloMosaic Idealize.ShloMosaic.ValueIdx
open scoped BigOperators

/-- The layer: row `i 0` of `(agg + x)` scaled by the node's normalisation, against row `i 1` of `W`, plus the bias. -/
def fused (agg x : FVec Ideal ⟨2, ![100000, 128]⟩ .f32) (nrm : FVec Ideal ⟨1, ![100000]⟩ .f32)
    (W : FVec Ideal ⟨2, ![128, 128]⟩ .f32) (b : FVec Ideal ⟨1, ![128]⟩ .f32) : FVec Ideal ⟨2, ![100000, 128]⟩ .f32 :=
  fun i => (∑ k : Fin 128, ((agg (ix2 (i 0) k) + x (ix2 (i 0) k)) * nrm (ix1 (i 0))) * W (ix2 (i 1) k)) + b (ix1 (i 1))

/-- The layer read at a row and a column. -/
theorem fused_apply (agg x : FVec Ideal ⟨2, ![100000, 128]⟩ .f32) (nrm : FVec Ideal ⟨1, ![100000]⟩ .f32)
    (W : FVec Ideal ⟨2, ![128, 128]⟩ .f32) (b : FVec Ideal ⟨1, ![128]⟩ .f32) (r : Fin 100000) (c : Fin 128) :
    fused agg x nrm W b (ix2 r c)
      = (∑ k : Fin 128, ((agg (ix2 r k) + x (ix2 r k)) * nrm (ix1 r)) * W (ix2 c k)) + b (ix1 c) := rfl

end Cert.GraphConv

end
-- ==== Proof.Payload.lean ====
/-
  What the kernel body stores, read at row `p` and column `q` of its 2000 x 128 block.

  The body adds the block of neighbour sums to the block of node features, scales each row by the row's
  normalisation (a 2000 x 1 column broadcast along the row), narrows the result and the weights to bf16 (at the
  ideal instance a change of format is the identity), multiplies by the TRANSPOSED weights on the matrix unit
  into a zero accumulator, and adds the bias row broadcast down the columns. So the stored value at `(p, q)` is

      ∑ k < 128, ((a[p, k] + x[p, k]) · n[p, 0]) · w[q, k]  +  b[0, q].

  The matrix product into a zero accumulator is the plain sum of products over the contracted axis: the
  contracted index `k` is column `k` of the left operand and row `k` of the right one, and the right operand
  is the transpose of the weights, whose entry `(k, q)` is the weights' entry `(q, k)`.
-/
import proofs.«162231_j84499186582211_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen Idealize.ShloMosaic Idealize.ShloMosaic.ValueIdx
open scoped BigOperators

/-! ## The product's operand indices, axis by axis -/

/-- The left operand is read in the result's row. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the contracted position. -/
theorem lhs_contr (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the contracted position. -/
theorem rhs_contr (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand is read in the result's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Row `i 0`, column `k` of the left operand. -/
abbrev leftAt (i : S2000x128.Idx) (k : Fin 128) : S2000x128.Idx := fun a => match a with
  | ⟨0, _⟩ => ⟨(i 0).val, (i 0).isLt⟩
  | ⟨1, _⟩ => ⟨k.val, k.isLt⟩
/-- Row `k`, column `i 1` of the right operand. -/
abbrev rightAt (i : S2000x128.Idx) (k : Fin 128) : S128x128.Idx := fun a => match a with
  | ⟨0, _⟩ => ⟨k.val, k.isLt⟩
  | ⟨1, _⟩ => ⟨(i 1).val, (i 1).isLt⟩

/-- The matrix unit's product into a zero accumulator, at the ideal instance, is the sum over the 128 contracted
    positions of the products. -/
theorem product_apply (l : FVec Ideal S2000x128 .bf16) (w : FVec Ideal S128x128 .bf16) (i : S2000x128.Idx) :
    matmul dot_S2000x128_S128x128_S2000x128_1_0_0_1_n_n none l w (constant (F := Ideal) S2000x128 .f32 0x00000000#32) i
      = ∑ k : Fin 128, l (leftAt i k) * w (rightAt i k) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx i ((ValueIdx.contrEquiv1 dot_S2000x128_S128x128_S2000x128_1_0_0_1_n_n 128 rfl rfl).symm k) = leftAt i k := funext fun a => Fin.ext (by
    match a with
    | ⟨0, _⟩ => exact lhs_row _ _
    | ⟨1, _⟩ => exact (lhs_contr _ _).trans hk)
  have er : dot_S2000x128_S128x128_S2000x128_1_0_0_1_n_n.rhsIdx i ((ValueIdx.contrEquiv1 dot_S2000x128_S128x128_S2000x128_1_0_0_1_n_n 128 rfl rfl).symm k) = rightAt i k := funext fun a => Fin.ext (by
    match a with
    | ⟨0, _⟩ => exact (rhs_contr _ _).trans hk
    | ⟨1, _⟩ => exact rhs_col _ _)
  rw [el, er]

theorem leftAt_ix2 (p : Fin 2000) (q k : Fin 128) : leftAt (ix2 p q) k = ix2 p k :=
  funext fun a => Fin.ext (by match a with | ⟨0, _⟩ => rfl | ⟨1, _⟩ => rfl)
theorem rightAt_ix2 (p : Fin 2000) (q k : Fin 128) : rightAt (ix2 p q) k = ix2 k q :=
  funext fun a => Fin.ext (by match a with | ⟨0, _⟩ => rfl | ⟨1, _⟩ => rfl)

/-! ## The layout operations at an index -/

variable {α : Type}

/-- A 2000 x 1 column broadcast along the rows: entry `(p, k)` is the column's entry `p`. -/
theorem column_broadcast_apply (v : S2000x1.Idx → α) (h : S2000x1.Broadcasts S2000x128) (p : Fin 2000) (k : Fin 128) :
    broadcastTo S2000x128 v h (ix2 p k) = v (ix2 p 0) :=
  broadcastTo_apply v h (ix2 p k) (ix2 p 0) (fun a => match a with
    | ⟨0, _⟩ => by show p.val = if (2000 : Nat) = 1 then 0 else p.val; rw [if_neg (by decide)]
    | ⟨1, _⟩ => by show 0 = if (1 : Nat) = 1 then 0 else k.val; rw [if_pos rfl])

/-- A 1 x 128 row broadcast down the columns: entry `(p, q)` is the row's entry `q`. -/
theorem row_broadcast_apply (v : S1x128.Idx → α) (h : S1x128.Broadcasts S2000x128) (p : Fin 2000) (q : Fin 128) :
    broadcastTo S2000x128 v h (ix2 p q) = v (ix2 0 q) :=
  broadcastTo_apply v h (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The transpose of a 128 x 128 matrix: entry `(k, q)` is the matrix's entry `(q, k)`. -/
theorem transpose_apply' (v : S128x128.Idx → α) (h : S128x128.Transposes [1, 0] S128x128) (k q : Fin 128) :
    transpose S128x128 [1, 0] v h (ix2 k q) = v (ix2 q k) :=
  transpose_apply [1, 0] v h (ix2 k q) (ix2 q k) (fun b => match b with
    | ⟨0, _⟩ => rfl
    | ⟨1, _⟩ => rfl)

/-! ## The stored value -/

/-- The body's one stored value at `(p, q)`, at the ideal instance. -/
theorem payload_apply (a x : Vec Ideal S2000x128 .f32) (n : Vec Ideal S2000x1 .f32) (w : Vec Ideal S128x128 .f32)
    (b : Vec Ideal S1x128 .f32) (p : Fin 2000) (q : Fin 128) :
    k0_pay1 (F := Ideal) a x n w b (ix2 p q)
      = (∑ k : Fin 128, ((a (ix2 p k) + x (ix2 p k)) * n (ix2 p 0)) * w (ix2 q k)) + b (ix2 0 q) := by
  unfold k0_pay1
  dsimp only
  rw [shapeCast_self a, shapeCast_self n, shapeCast_self b, addf_apply, product_apply, row_broadcast_apply]
  congr 1
  refine Finset.sum_congr rfl fun k _ => ?_
  rw [leftAt_ix2, rightAt_ix2, truncf_apply, mulf_apply, addf_apply, column_broadcast_apply, transpose_apply',
    truncf_apply]

end Cert.KernelIdeal.BodyValue

end
-- ==== Proof.HostSide.lean ====
/-
  What the kernel's region finds in the three arrays the host computes for it, as terms of the program's
  arguments (the features `x`, the edge sources `src`, the edge destinations `dst`, the bias `b`):

  * the neighbour sums: the rows `x[src[e]]` (a negative source wrapped by the number of nodes) gathered per
    edge and added into row `dst[e]` of a zero matrix;
  * the degree normalisation as a column: ones added into entry `dst[e]` of a zero vector (the in-degree),
    clipped below at one, raised to the power -1/2, and laid out as 100000 x 1;
  * the bias laid out as a 1 x 128 row.

  The host operations before the region are straight-line, so each array after them is the composition of
  the operations that lead to it.
-/
import proofs.«162231_j84499186582211_1_alg».proof.Proof.Gen.KernelIdeal.Frame
import Idealize.ShloMosaic.Lib.StableHlo.Run

noncomputable section

namespace Cert.KernelIdeal.HostSide

open Cert.KernelIdeal Cert.KernelIdeal.Gen Idealize.ShloMosaic Idealize.ShloMosaic.TcCoe
open Idealize.SL.Sem Idealize.ShloMosaic.StableHlo

variable {F : FTy → Type} [FloatOps F]

/-- The neighbour sums: for every edge, the source's feature row added into the destination's row. -/
def neighbourSum (x : (⟨S100000x128, .f32⟩ : BufTy).Contents (Elt F)) (src dst : (⟨S600000, .i32⟩ : BufTy).Contents (Elt F)) :
    (⟨S100000x128, .f32⟩ : BufTy).Contents (Elt F) :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 dst)
    (Host.gather gather_S100000x128_S600000x1_S600000x128_1_0_n_n_0_1_1128 x
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 100000#32))) src)))

/-- The degree normalisation: the in-degree, clipped below at one, to the power -1/2. -/
def degreeNorm (dst : (⟨S600000, .i32⟩ : BufTy).Contents (Elt F)) : (⟨S100000, .f32⟩ : BufTy).Contents (Elt F) :=
  Host.powf
    (maximumf (broadcastInDim S100000 ![] bcast_S_S100000 (id (constant S_ .f32 0x3F800000#32)))
      (Host.scatterAdd scatter_S100000_S600000x1_S600000_n_0_0_1
        (broadcastInDim S100000 ![] bcast_S_S100000 (constant S_ .f32 0x00000000#32))
        (broadcastInDim S600000x1 ![0] bcast_S600000_S600000x1_0 dst)
        (broadcastInDim S600000 ![] bcast_S_S600000 (constant S_ .f32 0x3F800000#32))))
    (broadcastInDim S100000 ![] bcast_S_S100000 (constant S_ .f32 0xBF000000#32))

variable (m : (ℓ : Loc nD τ sig) → Buf (Elt F) ℓ)

/-- The region's first operand holds the neighbour sums of the arguments. -/
theorem found_neighbourSum (c : Dev nD) :
    (V m c main_v9 : (⟨S100000x128, .f32⟩ : BufTy).Contents (Elt F))
      = neighbourSum (m ((c : Thread nD τ).loc main_arg0)) (m ((c : Thread nD τ).loc main_arg1)) (m ((c : Thread nD τ).loc main_arg2)) := by
  dsimp only [V]
  simp only [hostOps0, hostOps0_1, hostOps0_2, List.flatten_cons, List.flatten_nil, List.append_nil, List.cons_append,
    List.nil_append]
  after_results_simp <;> rfl

/-- The region's third operand holds the degree normalisation as a 100000 x 1 column. -/
theorem found_degreeNorm (c : Dev nD) :
    (V m c main_v17 : (⟨S100000x1, .f32⟩ : BufTy).Contents (Elt F))
      = shapeCast S100000x1 (degreeNorm (m ((c : Thread nD τ).loc main_arg2))) shapeCasts_S100000_S100000x1 := by
  dsimp only [V]
  simp only [hostOps0, hostOps0_1, hostOps0_2, List.flatten_cons, List.flatten_nil, List.append_nil, List.cons_append,
    List.nil_append]
  after_results_simp <;> rfl

/-- The region's fifth operand holds the bias as a 1 x 128 row. -/
theorem found_bias (c : Dev nD) :
    (V m c main_v18 : (⟨S1x128, .f32⟩ : BufTy).Contents (Elt F))
      = shapeCast S1x128 (m ((c : Thread nD τ).loc main_arg4)) shapeCasts_S128_S1x128 := by
  dsimp only [V]
  simp only [hostOps0, hostOps0_1, hostOps0_2, List.flatten_cons, List.flatten_nil, List.append_nil, List.cons_append,
    List.nil_append]
  after_results_simp <;> rfl

end Cert.KernelIdeal.HostSide

end
-- ==== Proof.Blocks.lean ====
/-
  From blocks to the whole array. The kernel runs on a grid of 50 points; at point `t` the neighbour sums,
  the features, the normalisation column and the output are staged as the block of rows
  `2000·t … 2000·t + 1999`, while the weights and the bias row are staged whole. So entry `(p, q)` of what
  point `t` writes back is the layer `Cert.GraphConv.fused` of the arrays the region finds, at row
  `2000·t + p` and column `q`; the 50 blocks cover all 100000 rows (row `r` lies in block `r / 2000`), and the
  output array after the run is the layer of those arrays, everywhere.
-/
import proofs.«162231_j84499186582211_1_alg».proof.Proof.Gen.KernelIdeal.Value
import proofs.«162231_j84499186582211_1_alg».proof.Proof.Spec
import proofs.«162231_j84499186582211_1_alg».proof.Proof.Payload
import proofs.«162231_j84499186582211_1_alg».proof.Proof.HostSide

set_option maxRecDepth 16384

noncomputable section

namespace Cert.KernelIdeal.LayerValue

open Cert.KernelIdeal Cert.KernelIdeal.Gen Idealize.ShloMosaic Idealize.ShloMosaic.TcCoe Idealize.SL.Sem
open Idealize.ShloMosaic.ValueIdx Cert.GraphConv
open Idealize.ShloMosaic.Pipeline (Dat)
open scoped BigOperators

variable (m : (ℓ : Loc nD τ sig) → Buf (Elt Ideal) ℓ) (ρ : Dev nD → PrngReg)

theorem zeros : (![0, 0] : Fin 2 → Nat) = fun _ => 0 := funext fun a => by fin_cases a <;> rfl

/-! ## The arrays the region finds and the blocks a point stages, at their literal types -/

abbrev aggArr (c : Dev nD) : FVec Ideal S100000x128 .f32 := V m c main_v9
abbrev featArr (c : Dev nD) : FVec Ideal S100000x128 .f32 := V m c main_arg0
abbrev normArr (c : Dev nD) : FVec Ideal S100000x1 .f32 := V m c main_v17
abbrev weightArr (c : Dev nD) : FVec Ideal S128x128 .f32 := V m c main_arg3
abbrev biasArr (c : Dev nD) : FVec Ideal S1x128 .f32 := V m c main_v18

abbrev aggBlock (c : Dev nD) (t : Fin cfg0.N) : Vec Ideal S2000x128 .f32 := iblk m c 0 t
abbrev featBlock (c : Dev nD) (t : Fin cfg0.N) : Vec Ideal S2000x128 .f32 := iblk m c 1 t
abbrev normBlock (c : Dev nD) (t : Fin cfg0.N) : Vec Ideal S2000x1 .f32 := iblk m c 2 t
abbrev weightBlock (c : Dev nD) (t : Fin cfg0.N) : Vec Ideal S128x128 .f32 := iblk m c 3 t
abbrev biasBlock (c : Dev nD) (t : Fin cfg0.N) : Vec Ideal S1x128 .f32 := iblk m c 4 t

/-- The layer of the arrays as the region finds them: the normalisation read off its column, the bias off its row. -/
abbrev layerOf (c : Dev nD) : FVec Ideal S100000x128 .f32 :=
  fused (aggArr m c) (featArr m c) (fun j => normArr m c (ix2 (j 0) 0)) (weightArr m c) (fun j => biasArr m c (ix2 0 (j 0)))

/-! ## The index maps over the grid -/

/-- At point `t` the four row-blocked windows are at block row `t`, block column 0; the weights and the bias row
    are always at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each staged block is the array read at the block's rows -/

theorem aggBlock_apply (c : Dev nD) (t : Fin cfg0.N) (y : S2000x128.Idx) (z : S100000x128.Idx)
    (h0 : (z 0).val = t.val * 2000 + (y 0).val) (h1 : (z 1).val = (y 1).val) :
    aggBlock m c t y = aggArr m c z := by
  show V m c main_v9 (((cfg0.win 0).blk t).view.emb y) = V m c main_v9 z
  obtain ⟨e0, e1, -⟩ := block_index t
  refine congrArg (V m c main_v9) (funext fun a => Fin.ext ?_)
  match a with
  | ⟨0, _⟩ => show win0_0.index t (0 : Fin 2) * 2000 + 1 * (y 0).val = (z 0).val; omega
  | ⟨1, _⟩ => show win0_0.index t (1 : Fin 2) * 128 + 1 * (y 1).val = (z 1).val; omega

theorem featBlock_apply (c : Dev nD) (t : Fin cfg0.N) (y : S2000x128.Idx) (z : S100000x128.Idx)
    (h0 : (z 0).val = t.val * 2000 + (y 0).val) (h1 : (z 1).val = (y 1).val) :
    featBlock m c t y = featArr m c z := by
  show V m c main_arg0 (((cfg0.win 1).blk t).view.emb y) = V m c main_arg0 z
  obtain ⟨-, -, e0, e1, -⟩ := block_index t
  refine congrArg (V m c main_arg0) (funext fun a => Fin.ext ?_)
  match a with
  | ⟨0, _⟩ => show win0_1.index t (0 : Fin 2) * 2000 + 1 * (y 0).val = (z 0).val; omega
  | ⟨1, _⟩ => show win0_1.index t (1 : Fin 2) * 128 + 1 * (y 1).val = (z 1).val; omega

theorem normBlock_apply (c : Dev nD) (t : Fin cfg0.N) (y : S2000x1.Idx) (z : S100000x1.Idx)
    (h0 : (z 0).val = t.val * 2000 + (y 0).val) (h1 : (z 1).val = (y 1).val) :
    normBlock m c t y = normArr m c z := by
  show V m c main_v17 (((cfg0.win 2).blk t).view.emb y) = V m c main_v17 z
  obtain ⟨-, -, -, -, e0, e1, -⟩ := block_index t
  refine congrArg (V m c main_v17) (funext fun a => Fin.ext ?_)
  match a with
  | ⟨0, _⟩ => show win0_2.index t (0 : Fin 2) * 2000 + 1 * (y 0).val = (z 0).val; omega
  | ⟨1, _⟩ => show win0_2.index t (1 : Fin 2) * 1 + 1 * (y 1).val = (z 1).val; omega

theorem weightBlock_apply (c : Dev nD) (t : Fin cfg0.N) (y : S128x128.Idx) :
    weightBlock m c t y = weightArr m c y := by
  show V m c main_arg3 (((cfg0.win 3).blk t).view.emb y) = V m c main_arg3 y
  obtain ⟨-, -, -, -, -, -, e0, e1, -⟩ := block_index t
  refine congrArg (V m c main_arg3) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem biasBlock_apply (c : Dev nD) (t : Fin cfg0.N) (y : S1x128.Idx) :
    biasBlock m c t y = biasArr m c y := by
  show V m c main_v18 (((cfg0.win 4).blk t).view.emb y) = V m c main_v18 y
  obtain ⟨-, -, -, -, -, -, -, -, e0, e1, -⟩ := block_index t
  refine congrArg (V m c main_v18) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-! ## What a point computes is the layer at the block's rows -/

/-- Entry `y` of the body's stored value at point `t` is the layer at the array index `z` in row
    `2000·t + y 0`, column `y 1`. -/
theorem block_value (c : Dev nD) (t : Fin cfg0.N) (y : S2000x128.Idx) (z : S100000x128.Idx)
    (h0 : (z 0).val = t.val * 2000 + (y 0).val) (h1 : (z 1).val = (y 1).val) :
    k0_pay1 (F := Ideal) (aggBlock m c t) (featBlock m c t) (normBlock m c t) (weightBlock m c t) (biasBlock m c t) y
      = layerOf m c z := by
  obtain ⟨p, q, rfl⟩ : ∃ (p : Fin 2000) (q : Fin 128), y = ix2 p q := ⟨y 0, y 1, eq_ix2 y⟩
  obtain ⟨r, s, rfl⟩ : ∃ (r : Fin 100000) (s : Fin 128), z = ix2 r s := ⟨z 0, z 1, eq_ix2 z⟩
  have hr : r.val = t.val * 2000 + p.val := h0
  obtain rfl : s = q := Fin.ext h1
  refine (BodyValue.payload_apply (aggBlock m c t) (featBlock m c t) (normBlock m c t) (weightBlock m c t) (biasBlock m c t) p s).trans ?_
  refine (congrArg₂ (· + ·) (Finset.sum_congr rfl fun k _ => ?_) ?_).trans
    (fused_apply (aggArr m c) (featArr m c) (fun j => normArr m c (ix2 (j 0) 0)) (weightArr m c) (fun j => biasArr m c (ix2 0 (j 0))) r s).symm
  · rw [aggBlock_apply m c t (ix2 p k) (ix2 r k) hr rfl, featBlock_apply m c t (ix2 p k) (ix2 r k) hr rfl,
      normBlock_apply m c t (ix2 p 0) (ix2 r 0) hr rfl, weightBlock_apply m c t (ix2 s k)]
  · exact biasBlock_apply m c t (ix2 0 s)

/-! ## Point `t` writes back block `t` of the layer -/

theorem flushed_eq (c : Dev nD) (t : Fin cfg0.N) :
    (dats m 0 c).flushed 5 t = ((cfg0.win 5).blk t).view.read (Elt Ideal) (layerOf m c) := by
  rw [Value.flushed5]
  unfold out0_5
  rw [View.canon_unit_zero zeros]
  simp only [View.ld_unit_zero (S := S2000x128) zeros, View.ld_unit_zero (S := S2000x1) zeros,
    View.ld_unit_zero (S := S128x128) zeros, View.ld_unit_zero (S := S1x128) zeros]
  obtain ⟨-, -, -, -, -, -, -, -, -, -, e0, e1⟩ := block_index t
  funext y
  show k0_pay1 (F := Ideal) (aggBlock m c t) (featBlock m c t) (normBlock m c t) (weightBlock m c t) (biasBlock m c t) y
    = layerOf m c (((cfg0.win 5).blk t).view.emb y)
  refine block_value m c t y (((cfg0.win 5).blk t).view.emb y) ?_ ?_
  · show win0_5.index t (0 : Fin 2) * 2000 + 1 * (y 0).val = t.val * 2000 + (y 0).val; omega
  · show win0_5.index t (1 : Fin 2) * 128 + 1 * (y 1).val = (y 1).val; omega

/-! ## The blocks cover the array -/

/-- An index of the array is in point `t`'s block iff each coordinate is in the block's range on its axis. -/
theorem mem_block (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v19).slice (win0_5.rect t)).set ↔ _
  rw [View.set_slice_whole, Rect.mem_set_unit]
  exact Iff.rfl

/-- Row `r` lies in the block of point `r / 2000`. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  have ht : t.val = (i 0).val / 2000 := rfl
  obtain ⟨-, -, -, -, -, -, -, -, -, -, e0, e1⟩ := block_index t
  refine ⟨t, flush0_5 t, ?_⟩
  rw [mem_block]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-! ## The output array after the run, and the run -/

/-- The output array after the run is the layer of the arrays the region finds. -/
theorem final (c : Dev nD) : (dats m 0 c).arrAt 5 cfg0.N = layerOf m c :=
  (dats m 0 c).arrAt_eq_of_cover 5 (layerOf m c) (fun t _ => flushed_eq m c t) covered

end Cert.KernelIdeal.LayerValue

end
-- ==== Proof.RefIsFused.lean ====
/-
  The reference's result, stage by stage, is the layer `Cert.GraphConv.fused` of its own earlier stages:
  the neighbour sum (the scatter-add of the gathered rows), the node features, the degree normalisation
  (the clipped in-degree to the power -1/2), the weights and the bias.

  Read at row `r` and column `c`: the final add reads the matrix product and the bias broadcast there; the
  product is the sum over the 128 contracted positions `k` of the left operand at `(r, k)` times the
  transposed weights at `(k, c)`, that is `W` at `(c, k)`; the left operand at `(r, k)` is
  `(agg + x)` there times the normalisation broadcast along the row, that is its entry `r`; the bias broadcast
  at `(r, c)` is its entry `c`.
-/
import proofs.«162231_j84499186582211_1_alg».proof.Proof.Gen.ReferenceIdeal.Read
import proofs.«162231_j84499186582211_1_alg».proof.Proof.Spec

noncomputable section

namespace Cert.ReferenceIdeal.RefValue

open Cert.ReferenceIdeal Cert.ReferenceIdeal.Read Idealize.ShloMosaic Idealize.ShloMosaic.ValueIdx Cert.GraphConv
open scoped BigOperators

/-- The contracted position `k` of the product's left operand, in row `r`. -/
theorem left_index (r : Fin 100000) (c k : Fin 128) : lidx_main_v22 (ix2 r c) k = ix2 r k :=
  funext fun a => Fin.ext (by match a with | ⟨0, _⟩ => rfl | ⟨1, _⟩ => rfl)

/-- The transposed weights at the contracted position `k` and column `c` are the weights at row `c`, column `k`. -/
theorem weight_index (r : Fin 100000) (c k : Fin 128) : idx_main_v21 (ridx_main_v22 (ix2 r c) k) = ix2 c k :=
  funext fun a => Fin.ext (by match a with | ⟨0, _⟩ => rfl | ⟨1, _⟩ => rfl)

/-- The normalisation, broadcast to a column and then along the rows, read at `(r, k)` is its entry `r`. -/
theorem norm_index (r : Fin 100000) (k : Fin 128) : idx_main_v18 (idx_main_v19 (ix2 r k)) = ix1 r :=
  funext fun a => Fin.ext (by match a with | ⟨0, _⟩ => rfl)

/-- The bias, broadcast to a row and then down the columns, read at `(r, c)` is its entry `c`. -/
theorem bias_index (r : Fin 100000) (c : Fin 128) : idx_main_v23 (idx_main_v24 (ix2 r c)) = ix1 c :=
  funext fun a => Fin.ext (by match a with | ⟨0, _⟩ => rfl)

/-- The reference's last stage is the layer of its neighbour-sum stage, the features, its normalisation stage,
    the weights and the bias. -/
theorem last_stage_eq (x0 : (⟨S100000x128, .f32⟩ : BufTy).Contents (Elt Ideal))
    (x1 x2 : (⟨S600000, .i32⟩ : BufTy).Contents (Elt Ideal))
    (x3 : (⟨S128x128, .f32⟩ : BufTy).Contents (Elt Ideal)) (x4 : (⟨S128, .f32⟩ : BufTy).Contents (Elt Ideal)) :
    val_main_v25 (F := Ideal) x0 x1 x2 x3 x4
      = fused (val_main_v9 (F := Ideal) x0 x1 x2) x0 (val_main_v16 (F := Ideal) x2) x3 x4 := by
  funext i
  obtain ⟨r, c, rfl⟩ : ∃ (r : Fin 100000) (c : Fin 128), i = ix2 r c := ⟨i 0, i 1, eq_ix2 i⟩
  rw [val_main_v25_apply, val_main_v22_apply, val_main_v24_apply, val_main_v23_apply, bias_index, fused_apply]
  simp only [val_main_v20_apply, val_main_v17_apply, val_main_v19_apply, val_main_v18_apply, val_main_v21_apply,
    left_index, weight_index, norm_index, Ideal.addf_def, Ideal.mulf_def]

end Cert.ReferenceIdeal.RefValue

end
-- ==== Proof.Layout.lean ====
/-
  A vector laid out as a matrix with one unit axis keeps its entries in order: as a 100000 x 1 column its
  entry `(r, 0)` is the vector's entry `r`, and as a 1 x 128 row its entry `(0, q)` is the vector's entry
  `q`. Both hold because a change of layout preserves the row-major position, and the row-major position of
  `(r, 0)` in a column is `r · 1 + 0`, that of `(0, q)` in a row of 128 is `0 · 128 + q`.
-/
import Idealize.ShloMosaic.Lib.Pipeline.Value
import Idealize.ShloMosaic.Lib.ValueIdx

noncomputable section

namespace Cert.GraphConv

open Idealize.ShloMosaic Idealize.ShloMosaic.ValueIdx

variable {α : Type}

/-- A vector of 100000 entries as a 100000 x 1 column, read at `(r, 0)`. -/
theorem column_apply (v : (⟨1, ![100000]⟩ : Shape).Idx → α)
    (h : (⟨1, ![100000]⟩ : Shape).ShapeCasts ⟨2, ![100000, 1]⟩) (r : Fin 100000) :
    shapeCast ⟨2, ![100000, 1]⟩ v h (ix2 r 0) = v (ix1 r) :=
  shapeCast_apply v h (ix2 r 0) (ix1 r) (by
    rw [Shape.rowMajor_val_one, Shape.rowMajor_val_two]
    show r.val = r.val * 1 + 0
    omega)

/-- A vector of 128 entries as a 1 x 128 row, read at `(0, q)`. -/
theorem row_apply (v : (⟨1, ![128]⟩ : Shape).Idx → α)
    (h : (⟨1, ![128]⟩ : Shape).ShapeCasts ⟨2, ![1, 128]⟩) (q : Fin 128) :
    shapeCast ⟨2, ![1, 128]⟩ v h (ix2 0 q) = v (ix1 q) :=
  shapeCast_apply v h (ix2 0 q) (ix1 q) (by
    rw [Shape.rowMajor_val_one, Shape.rowMajor_val_two]
    show q.val = 0 * 128 + q.val
    omega)

end Cert.GraphConv

end
-- ==== Proof.Bridge.lean ====
/-
  The kernel's result as the layer of the ARGUMENTS, in the reference's own terms.

  Both programs compute the neighbour sums and the degree normalisation on the host by the same operations
  with the same constants, so the kernel's two host-computed operands are the reference's neighbour-sum stage
  and its normalisation stage of the same arguments. The kernel reads the normalisation through a 100000 x 1
  column and the bias through a 1 x 128 row, which hold the vectors' entries in order. Hence the output array
  after the kernel's run is the layer of the reference's stages, the features, the weights and the bias.
-/
import proofs.«162231_j84499186582211_1_alg».proof.Proof.Blocks
import proofs.«162231_j84499186582211_1_alg».proof.Proof.RefIsFused
import proofs.«162231_j84499186582211_1_alg».proof.Proof.Layout

noncomputable section

namespace Cert.KernelIdeal.LayerValue

open Cert.KernelIdeal Cert.KernelIdeal.Gen Idealize.ShloMosaic Idealize.ShloMosaic.TcCoe Idealize.SL.Sem
open Idealize.ShloMosaic.ValueIdx Cert.GraphConv Cert.KernelIdeal.HostSide

/-- The kernel's host operations for the neighbour sums are the reference's. -/
theorem neighbourSum_eq (x : (⟨S100000x128, .f32⟩ : BufTy).Contents (Elt Ideal)) (src dst : (⟨S600000, .i32⟩ : BufTy).Contents (Elt Ideal)) :
    neighbourSum (F := Ideal) x src dst = Cert.ReferenceIdeal.Read.val_main_v9 (F := Ideal) x src dst := rfl

/-- The kernel's host operations for the degree normalisation are the reference's. -/
theorem degreeNorm_eq (dst : (⟨S600000, .i32⟩ : BufTy).Contents (Elt Ideal)) :
    degreeNorm (F := Ideal) dst = Cert.ReferenceIdeal.Read.val_main_v16 (F := Ideal) dst := rfl

variable (m : (ℓ : Loc nD τ sig) → Buf (Elt Ideal) ℓ) (ρ : Dev nD → PrngReg)

/-- The normalisation column the region finds, read at `(r, 0)`, is the normalisation's entry `r`. -/
theorem normArr_column (c : Dev nD) :
    (fun j : S100000.Idx => normArr m c (ix2 (j 0) 0)) = degreeNorm (F := Ideal) (m ((c : Thread nD τ).loc main_arg2)) := by
  funext j
  show (V m c main_v17 : (⟨S100000x1, .f32⟩ : BufTy).Contents (Elt Ideal)) (ix2 (j 0) 0) = _
  rw [found_degreeNorm]
  exact (column_apply _ _ (j 0)).trans (congrArg _ (eq_ix1 j).symm)

/-- The bias row the region finds, read at `(0, q)`, is the bias's entry `q`. -/
theorem biasArr_row (c : Dev nD) :
    (fun j : S128.Idx => biasArr m c (ix2 0 (j 0))) = m ((c : Thread nD τ).loc main_arg4) := by
  funext j
  show (V m c main_v18 : (⟨S1x128, .f32⟩ : BufTy).Contents (Elt Ideal)) (ix2 0 (j 0)) = _
  rw [found_bias]
  exact (row_apply _ _ (j 0)).trans (congrArg _ (eq_ix1 j).symm)

/-- The layer of what the region finds is the layer of the reference's stages of the arguments. -/
theorem layerOf_eq (c : Dev nD) :
    layerOf m c
      = fused (Cert.ReferenceIdeal.Read.val_main_v9 (F := Ideal) (m ((c : Thread nD τ).loc main_arg0)) (m ((c : Thread nD τ).loc main_arg1)) (m ((c : Thread nD τ).loc main_arg2)))
          (m ((c : Thread nD τ).loc main_arg0))
          (Cert.ReferenceIdeal.Read.val_main_v16 (F := Ideal) (m ((c : Thread nD τ).loc main_arg2)))
          (m ((c : Thread nD τ).loc main_arg3)) (m ((c : Thread nD τ).loc main_arg4)) := by
  show fused (aggArr m c) (featArr m c) (fun j => normArr m c (ix2 (j 0) 0)) (weightArr m c) (fun j => biasArr m c (ix2 0 (j 0))) = _
  rw [normArr_column, biasArr_row, degreeNorm_eq, ← neighbourSum_eq]
  show fused (V m c main_v9) (V m c main_arg0) _ (V m c main_arg3) _ = _
  rw [found_neighbourSum, V_main_arg0, V_main_arg3]

/-- The kernel's run: every weakly fair execution ends with the output array at the layer of the arrays the
    region finds, the arguments unchanged. -/
theorem run : θ_run defs (onTc (τ := τ) (main (F := Ideal))) ⟨m, fun _ => 0, ρ⟩ fun r => ∀ c : Dev nD,
      r.2.mem ((c : Thread nD τ).loc main_v19) = layerOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.LayerValue

end
-- ==== Proof.lean ====
/-
  One graph-convolution layer, the Pallas kernel against its jnp reference, over the extended reals.

  Both programs compute on the host, by the same operations, the neighbour sums `agg` (the rows `x[src[e]]`
  added into row `dst[e]`) and the degree normalisation `nrm` (the in-degree clipped below at one, to the
  power -1/2). The reference then forms `((agg + x) · nrm) · Wᵀ + b` on the host; the kernel forms the same
  thing 2000 rows at a time on a grid of 50 points, narrowing to bf16 before the matrix unit. At the ideal
  instance a change of float format is the identity and the matrix unit's product into a zero accumulator is
  the plain sum of products, so both results are, at row `r` and column `c`,

      ∑ k < 128, ((agg[r, k] + x[r, k]) · nrm[r]) · W[c, k]  +  b[c]

  (`Cert.GraphConv.fused`): the same sum in the same order on both sides, so no law of the extended reals that
  needs finiteness is used and the precondition is never opened.

  The frames of the two kernel programs and the kernel's blockwise run are the generated ones; the reference's
  frame is its generated run with the result dropped; the idealization rewrote no operation, so there is
  nothing to preserve.
-/
import proofs.«162231_j84499186582211_1_alg».proof.Defs
import proofs.«162231_j84499186582211_1_alg».proof.Proof.Gen.Kernel
import proofs.«162231_j84499186582211_1_alg».proof.Proof.Gen.Kernel.Skeleton
import proofs.«162231_j84499186582211_1_alg».proof.Proof.Gen.Kernel.Launch
import proofs.«162231_j84499186582211_1_alg».proof.Proof.Gen.Kernel.Points
import proofs.«162231_j84499186582211_1_alg».proof.Proof.Gen.Kernel.Frame
import proofs.«162231_j84499186582211_1_alg».proof.Proof.Gen.KernelIdeal
import proofs.«162231_j84499186582211_1_alg».proof.Proof.Gen.KernelIdeal.Skeleton
import proofs.«162231_j84499186582211_1_alg».proof.Proof.Gen.KernelIdeal.Launch
import proofs.«162231_j84499186582211_1_alg».proof.Proof.Gen.KernelIdeal.Points
import proofs.«162231_j84499186582211_1_alg».proof.Proof.Gen.KernelIdeal.Frame
import proofs.«162231_j84499186582211_1_alg».proof.Proof.Gen.ReferenceIdeal
import proofs.«162231_j84499186582211_1_alg».proof.Proof.Gen.Pre_finite_inputs
import proofs.«162231_j84499186582211_1_alg».proof.Proof.Gen.KernelIdeal.Value
import proofs.«162231_j84499186582211_1_alg».proof.Proof.Gen.ReferenceIdeal.Run
import proofs.«162231_j84499186582211_1_alg».proof.Proof.Gen.ReferenceIdeal.Read
import proofs.«162231_j84499186582211_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the layer of the same stages of the
    same arguments: the kernel's output array is the layer of what its region finds, which is the layer of the
    reference's stages; the reference's last stage is that layer. -/
theorem algebraic : Cert.algebraic_KernelIdeal_ReferenceIdeal := by
  intro m ρ m' ρ' _ hagree
  refine ⟨fun c => Cert.KernelIdeal.LayerValue.layerOf m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.last_stage_eq,
    (hagree c).1, (hagree c).2.1, (hagree c).2.2.1, (hagree c).2.2.2.1, (hagree c).2.2.2.2]
  exact (Cert.KernelIdeal.LayerValue.layerOf_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
